-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_arg1 : IVec S2x600000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : IVec S1x600000 32 := (extractStridedSlice S1x600000 ![0, 0] · slices_S2x600000_S1x600000_0_0) main_arg1
  let main_v55 : IVec S600000 32 := shapeCast S600000 main_v54 shapeCasts_S1x600000_S600000
  let main_c_20 : IVec S_ 32 := constantI S_ 32 4294917296#32
  let main_v56 : IVec S600000 32 := broadcastInDim S600000 ![] bcast_S_S600000 main_c_20
  let main_v57 : IVec S600000 1 := cmpi .sge main_v55 main_v56
  let main_v58 : IVec S1x600000 32 := (extractStridedSlice S1x600000 ![0, 0] · slices_S2x600000_S1x600000_0_0) main_arg1
  let main_v59 : IVec S600000 32 := shapeCast S600000 main_v58 shapeCasts_S1x600000_S600000
  let main_c_21 : IVec S_ 32 := constantI S_ 32 50000#32
  let main_v60 : IVec S600000 32 := broadcastInDim S600000 ![] bcast_S_S600000 main_c_21
  let main_v61 : IVec S600000 1 := cmpi .slt main_v59 main_v60
  let main_v62 : IVec S600000 1 := andi main_v57 main_v61
  let main_c_22 : IVec S_ 1 := constantI S_ 1 1#1
  let main_v63 : IVec S_ 1 := (fun x v => Host.reduce IntOp.andi x v reducesTo_S600000_S_d0 h_S_) main_v62 main_c_22
  let main_v64 : IVec S_ 1 := andi main_v53 main_v63
  main_v64

def fn_part2 {F : FTy → Type} [FloatOps F] (main_arg1 : IVec S2x600000 32) (main_arg8 : FVec F S128 .f32) (main_arg9 : FVec F S128x64 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S2x600000 32) (main_arg5 : FVec F S128 .f32) (main_arg6 : FVec F S128 .f32) (main_arg7 : FVec F S128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x128 .f32) (main_arg1 : IVec S2x600000 32) (main_arg2 : FVec F S128x128 .f32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x64 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 96
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S1, .i32⟩
  | .hbm, ⟨25, _⟩ => ⟨S_, .i32⟩
  | .hbm, ⟨26, _⟩ => ⟨S600000x1, .i32⟩
  | .hbm, ⟨27, _⟩ => ⟨S600000x1, .i1⟩
  | .hbm, ⟨28, _⟩ => ⟨S1x1, .i32⟩
  | .hbm, ⟨29, _⟩ => ⟨S600000x1, .i32⟩
  | .hbm, ⟨30, _⟩ => ⟨S600000x1, .i1⟩
  | .hbm, ⟨31, _⟩ => ⟨S600000x1, .i1⟩
  | .hbm, ⟨32, _⟩ => ⟨S_, .i1⟩
  | .hbm, ⟨33, _⟩ => ⟨S600000, .i1⟩
  | .hbm, ⟨34, _⟩ => ⟨S600000x128, .f32⟩
  | .hbm, ⟨35, _⟩ => ⟨S600000x128, .i1⟩
  | .hbm, ⟨36, _⟩ => ⟨S_, .f32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S_, .f32⟩
  | .hbm, ⟨44, _⟩ => ⟨S600000, .f32⟩
  | .hbm, ⟨45, _⟩ => ⟨S_, .f32⟩
  | .hbm, ⟨46, _⟩ => ⟨S50000, .f32⟩
  | .hbm, ⟨47, _⟩ => ⟨S600000x1, .i32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S1, .i32⟩
  | .hbm, ⟨65, _⟩ => ⟨S_, .i32⟩
  | .hbm, ⟨66, _⟩ => ⟨S600000x1, .i32⟩
  | .hbm, ⟨67, _⟩ => ⟨S600000x1, .i1⟩
  | .hbm, ⟨68, _⟩ => ⟨S1x1, .i32⟩
  | .hbm, ⟨69, _⟩ => ⟨S600000x1, .i32⟩
  | .hbm, ⟨70, _⟩ => ⟨S600000x1, .i1⟩
  | .hbm, ⟨71, _⟩ => ⟨S600000x1, .i1⟩
  | .hbm, ⟨72, _⟩ => ⟨S_, .i1⟩
  | .hbm, ⟨73, _⟩ => ⟨S600000, .i1⟩
  | .hbm, ⟨74, _⟩ => ⟨S600000x128, .f32⟩
  | .hbm, ⟨75, _⟩ => ⟨S600000x128, .i1⟩
  | .hbm, ⟨76, _⟩ => ⟨S_, .f32⟩
  | .hbm, ⟨77, _⟩ => ⟨S600000x128, .f32⟩
  | .hbm, ⟨78, _⟩ => ⟨S600000x128, .f32⟩
  | .hbm, ⟨79, _⟩ => ⟨S_, .f32⟩
  | .hbm, ⟨80, _⟩ => ⟨S50000x128, .f32⟩
  | .hbm, ⟨81, _⟩ => ⟨S600000x1, .i32⟩
  | .hbm, ⟨82, _⟩ => ⟨S50000x128, .f32⟩
  | .hbm, ⟨83, _⟩ => ⟨S_, .f32⟩
  | .hbm, ⟨84, _⟩ => ⟨S600000, .f32⟩
  | .hbm, ⟨85, _⟩ => ⟨S_, .f32⟩
  | .hbm, ⟨86, _⟩ => ⟨S50000, .f32⟩
  | .hbm, ⟨87, _⟩ => ⟨S600000x1, .i32⟩
  | .hbm, ⟨88, _⟩ => ⟨S50000, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S128x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_cst : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_0 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_2 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v18 : Ref sig .tc := ⟨.hbm, 78, rfl⟩
abbrev main_cst_3 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_cst_4 : Ref sig .tc := ⟨.hbm, 83, rfl⟩
abbrev main_v22 : Ref sig .tc := ⟨.hbm, 84, rfl⟩
abbrev main_cst_5 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_6 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S50000, .f32⟩
  | .hbm, ⟨33, _⟩ => ⟨S600000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x128, .f32⟩
  | .hbm, ⟨75, _⟩ => ⟨S_, .f32⟩
  | .hbm, ⟨76, _⟩ => ⟨S50000x128, .f32⟩
  | .hbm, ⟨77, _⟩ => ⟨S600000x1, .i32⟩
  | .hbm, ⟨78, _⟩ => ⟨S50000x128, .f32⟩
  | .hbm, ⟨79, _⟩ => ⟨S_, .f32⟩
  | .hbm, ⟨80, _⟩ => ⟨S600000, .f32⟩
  | .hbm, ⟨81, _⟩ => ⟨S_, .f32⟩
  | .hbm, ⟨82, _⟩ => ⟨S50000, .f32⟩
  | .hbm, ⟨83, _⟩ => ⟨S600000x1, .i32⟩
  | .hbm, ⟨84, _⟩ => ⟨S50000, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S50000x1, .f32⟩
  | .hbm, ⟨89, _⟩ => ⟨S50000x128, .f32⟩
  | .hbm, ⟨90, _⟩ => ⟨S50000x128, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_c_5 : Ref sig .tc := ⟨.hbm, 66, rfl⟩
abbrev main_v45 : Ref sig .tc := ⟨.hbm, 67, rfl⟩
abbrev main_v46 : Ref sig .tc := ⟨.hbm, 68, rfl⟩
abbrev main_c_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.AggDefs.lean ====
/-
  The neighbour mean as each program spells it, named once.

  Row 0 of the edge array holds the source nodes, row 1 the destinations. A negative source index counts from the
  end (`n < 0` becomes `n + 50000`); the gathered rows are summed into their destination nodes and divided by
  `max(in-degree, 1)`. The two programs differ in ONE operation: the kernel's program gathers and then keeps a row
  only where its index lies in `[0, 49999]`, writing the fill word elsewhere; the reference's program gathers
  alone, the gather itself clamping the index. Where every source index is in range the two agree.
-/
import proofs.«410555_j80676665688558_1_alg».proof.Proof.Gen.KernelIdeal
import proofs.«410555_j80676665688558_1_alg».proof.Proof.Gen.ReferenceIdeal
import Idealize.ShloMosaic.PureOps.Ideal
import Idealize.ShloMosaic.Lib.ValueIdx

noncomputable section

namespace Cert.Sage

open Idealize.ShloMosaic Idealize.ShloMosaic.ValueIdx

/-! ## The kernel program's spelling -/

section K
open Cert.KernelIdeal Cert.KernelIdeal.Gen

/-- The source nodes: row 0 of the edge array. -/
def srcK (ei : IVec S2x600000 32) : IVec S600000 32 :=
  shapeCast S600000 (extractStridedSlice S1x600000 ![0, 0] ei slices_S2x600000_S1x600000_0_0) shapeCasts_S1x600000_S600000

/-- The destination nodes: row 1 of the edge array. -/
def dstK (ei : IVec S2x600000 32) : IVec S600000 32 :=
  shapeCast S600000 (extractStridedSlice S1x600000 ![1, 0] ei slices_S2x600000_S1x600000_1_0) shapeCasts_S1x600000_S600000

/-- The source nodes with a negative index counted from the end, `n + 50000` for `n < 0`. -/
def normK (ei : IVec S2x600000 32) : IVec S600000 32 :=
  select (cmpi .slt (srcK ei) (broadcastInDim S600000 ![] bcast_S_S600000 (constantI S_ 32 0#32)))
    (addi (srcK ei) (broadcastInDim S600000 ![] bcast_S_S600000 (constantI S_ 32 50000#32))) (srcK ei)

/-- The same as a column of start indices. -/
def startK (ei : IVec S2x600000 32) : IVec S600000x1 32 :=
  broadcastInDim S600000x1 ![0] bcast_S600000_S600000x1_0 (normK ei)

/-- Edge `e`'s bit: its start index lies in `[0, 49999]`. -/
def keepK (ei : IVec S2x600000 32) : IVec S600000 1 :=
  Host.reduce IntOp.andi
    (andi (cmpi .sge (startK ei) (broadcastInDim S600000x1 ![] bcast_S_S600000x1 (constantI S_ 32 0#32)))
      (cmpi .sle (startK ei) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The gathered rows, a row kept where the edge's bit is set and the fill word written elsewhere. -/
def takeK (h : FVec Ideal S50000x128 .f32) (ei : IVec S2x600000 32) : FVec Ideal S600000x128 .f32 :=
  select (broadcastInDim S600000x128 ![0] bcast_S600000_S600000x128_0 (keepK ei))
    (Host.gather gather_S50000x128_S600000x1_S600000x128_1_0_n_n_0_1_1128 h (startK ei))
    (broadcastInDim S600000x128 ![] bcast_S_S600000x128 (constant S_ .f32 0x7FC00000#32))

/-- The messages `msg` summed into their destination nodes, each node's sum divided by `max(in-degree, 1)`. -/
def meanK (msg : FVec Ideal S600000x128 .f32) (ei : IVec S2x600000 32) : FVec Ideal S50000x128 .f32 :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 (dstK ei)) msg)
    (broadcastInDim S50000x128 ![0, 1] bcast_S50000x1_S50000x128_0_1
      (broadcastInDim S50000x1 ![0] bcast_S50000_S50000x1_0
        (maximumf
          (Host.scatterAdd scatter_S50000_S600000x1_S600000_n_0_0_1
            (broadcastInDim S50000 ![] bcast_S_S50000 (constant S_ .f32 0x00000000#32))
            (broadcastInDim S600000x1 ![0] bcast_S600000_S600000x1_0 (dstK ei))
            (broadcastInDim S600000 ![] bcast_S_S600000 (constant S_ .f32 0x3F800000#32)))
          (broadcastInDim S50000 ![] bcast_S_S50000 (constant S_ .f32 0x3F800000#32)))))

/-- The kernel program's neighbour mean of the rows of `h`. -/
def aggK (h : FVec Ideal S50000x128 .f32) (ei : IVec S2x600000 32) : FVec Ideal S50000x128 .f32 :=
  meanK (takeK h ei) ei

end K

/-! ## The reference program's spelling -/

section R
open Cert.ReferenceIdeal Cert.ReferenceIdeal.Gen

def srcR (ei : IVec S2x600000 32) : IVec S600000 32 :=
  shapeCast S600000 (extractStridedSlice S1x600000 ![0, 0] ei slices_S2x600000_S1x600000_0_0) shapeCasts_S1x600000_S600000

def dstR (ei : IVec S2x600000 32) : IVec S600000 32 :=
  shapeCast S600000 (extractStridedSlice S1x600000 ![1, 0] ei slices_S2x600000_S1x600000_1_0) shapeCasts_S1x600000_S600000

def normR (ei : IVec S2x600000 32) : IVec S600000 32 :=
  select (cmpi .slt (srcR ei) (broadcastInDim S600000 ![] bcast_S_S600000 (constantI S_ 32 0#32)))
    (addi (srcR ei) (broadcastInDim S600000 ![] bcast_S_S600000 (constantI S_ 32 50000#32))) (srcR ei)

def startR (ei : IVec S2x600000 32) : IVec S600000x1 32 :=
  broadcastInDim S600000x1 ![0] bcast_S600000_S600000x1_0 (normR ei)

/-- The gathered rows: the gather clamps a start index into `[0, 49999]` itself. -/
def takeR (h : FVec Ideal S50000x128 .f32) (ei : IVec S2x600000 32) : FVec Ideal S600000x128 .f32 :=
  Host.gather gather_S50000x128_S600000x1_S600000x128_1_0_n_n_0_1_1128 h (startR ei)

def meanR (msg : FVec Ideal S600000x128 .f32) (ei : IVec S2x600000 32) : FVec Ideal S50000x128 .f32 :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 (dstR ei)) msg)
    (broadcastInDim S50000x128 ![0, 1] bcast_S50000x1_S50000x128_0_1
      (broadcastInDim S50000x1 ![0] bcast_S50000_S50000x1_0
        (maximumf
          (Host.scatterAdd scatter_S50000_S600000x1_S600000_n_0_0_1
            (broadcastInDim S50000 ![] bcast_S_S50000 (constant S_ .f32 0x00000000#32))
            (broadcastInDim S600000x1 ![0] bcast_S600000_S600000x1_0 (dstR ei))
            (broadcastInDim S600000 ![] bcast_S_S600000 (constant S_ .f32 0x3F800000#32)))
          (broadcastInDim S50000 ![] bcast_S_S50000 (constant S_ .f32 0x3F800000#32)))))

/-- The reference program's neighbour mean of the rows of `h`. -/
def aggR (h : FVec Ideal S50000x128 .f32) (ei : IVec S2x600000 32) : FVec Ideal S50000x128 .f32 :=
  meanR (takeR h ei) ei

end R

/-- Every source index lies in `[-50000, 50000)`: in range of the node axis, a negative one counted from the end. -/
def SrcInRange (ei : IVec Cert.KernelIdeal.S2x600000 32) : Prop :=
  ∀ e : Fin 600000, -50000 ≤ (ei (ix2 (0 : Fin 2) e)).toInt ∧ (ei (ix2 (0 : Fin 2) e)).toInt < 50000

end Cert.Sage

end
-- ==== Proof.KHost.lean ====
/-
  The kernel program's host stretches, read back.

  Between the launch and the first region the program computes the neighbour mean of the input rows; between the two
  regions the neighbour mean of the hidden rows the first region left. Each is the host chain `aggK` of AggDefs, read
  off the fold of the stretch's operations over the contents the stretch starts from; the source and destination
  rows of the edge array, computed once at the start, and every argument buffer pass through unchanged.
-/
import proofs.«410555_j80676665688558_1_alg».proof.Proof.Gen.KernelIdeal.Frame
import proofs.«410555_j80676665688558_1_alg».proof.Proof.AggDefs
import Idealize.ShloMosaic.Lib.StableHlo.Run

set_option maxRecDepth 16384

noncomputable section

namespace Cert.Sage.KHost

open Cert.KernelIdeal Cert.KernelIdeal.Gen
open Idealize.ShloMosaic Idealize.ShloMosaic.TcCoe Idealize.SL.Sem Idealize.ShloMosaic.StableHlo Cert.Sage

variable (m : (ℓ : Loc nD τ sig) → Buf (Elt Ideal) ℓ) (ρ : Dev nD → PrngReg)

/-! ## Up to the first region -/

/-- The first region is entered with the neighbour mean of the input rows in its first window's array. -/
theorem W3_mean (c : Dev nD) :
    W3 m ρ c (Proc.devRef .tc main_v16) = aggK (m ((c : Thread nD τ).loc main_arg0)) (m ((c : Thread nD τ).loc main_arg1)) := by
  show StableHlo.after hostOps0_2 (StableHlo.after hostOps0_1 (StableHlo.after hostOps0 (W0 m ρ c))) (Proc.devRef .tc main_v16) = _
  simp only [hostOps0_2, hostOps0_1, hostOps0]
  after_results_simp
  simp only [TRef.ofBuf, TRef.toBuf, cast_eq]
  rfl

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results_simp

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0_2, hostOps0_1, hostOps0]
  after_results_simp

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results_simp

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0_2, hostOps0_1, hostOps0]
  after_results_simp

theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0_2, hostOps0_1, hostOps0]
  after_results_simp

theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  simp only [hostOps0_2, hostOps0_1, hostOps0]
  after_results_simp

theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  simp only [hostOps0_2, hostOps0_1, hostOps0]
  after_results_simp

theorem W3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  simp only [hostOps0_2, hostOps0_1, hostOps0]
  after_results_simp

theorem W3_arg9 (c : Dev nD) : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  simp only [hostOps0_2, hostOps0_1, hostOps0]
  after_results_simp

theorem W3_arg10 (c : Dev nD) : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  simp only [hostOps0_2, hostOps0_1, hostOps0]
  after_results_simp

theorem W3_arg11 (c : Dev nD) : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  simp only [hostOps0_2, hostOps0_1, hostOps0]
  after_results_simp

/-- The source rows of the edge array, as the first stretch leaves them. -/
theorem W3_src (c : Dev nD) : W3 m ρ c (Proc.devRef .tc main_v1) = srcK (m ((c : Thread nD τ).loc main_arg1)) := by
  show StableHlo.after hostOps0_2 (StableHlo.after hostOps0_1 (StableHlo.after hostOps0 (W0 m ρ c))) (Proc.devRef .tc main_v1) = _
  simp only [hostOps0_2, hostOps0_1, hostOps0]
  after_results_simp
  rfl

/-- The destination rows of the edge array, as the first stretch leaves them. -/
theorem W3_dst (c : Dev nD) : W3 m ρ c (Proc.devRef .tc main_v3) = dstK (m ((c : Thread nD τ).loc main_arg1)) := by
  show StableHlo.after hostOps0_2 (StableHlo.after hostOps0_1 (StableHlo.after hostOps0 (W0 m ρ c))) (Proc.devRef .tc main_v3) = _
  simp only [hostOps0_2, hostOps0_1, hostOps0]
  after_results_simp
  rfl

/-! ## Across the first region: it writes its output array and nothing else -/

theorem W4_src (c : Dev nD) : W4 m ρ c (Proc.devRef .tc main_v1) = srcK (m ((c : Thread nD τ).loc main_arg1)) :=
  (W4_of_ne m ρ c main_v1 (by decide)).trans (W3_src m ρ c)

theorem W4_dst (c : Dev nD) : W4 m ρ c (Proc.devRef .tc main_v3) = dstK (m ((c : Thread nD τ).loc main_arg1)) :=
  (W4_of_ne m ρ c main_v3 (by decide)).trans (W3_dst m ρ c)

/-- The hidden array is what the first region's write-backs leave in its output window's array. -/
theorem W4_hid (c : Dev nD) : W4 m ρ c (Proc.devRef .tc main_v17) = (dat0 (V3 m ρ) c).arrAt 9 cfg0.N :=
  W4_arr m ρ c 9

theorem W4_arg9 (c : Dev nD) : W4 m ρ c (Proc.devRef .tc main_arg9) = m ((c : Thread nD τ).loc main_arg9) :=
  (W4_of_ne m ρ c main_arg9 (by decide)).trans (W3_arg9 m ρ c)

theorem W4_arg10 (c : Dev nD) : W4 m ρ c (Proc.devRef .tc main_arg10) = m ((c : Thread nD τ).loc main_arg10) :=
  (W4_of_ne m ρ c main_arg10 (by decide)).trans (W3_arg10 m ρ c)

theorem W4_arg11 (c : Dev nD) : W4 m ρ c (Proc.devRef .tc main_arg11) = m ((c : Thread nD τ).loc main_arg11) :=
  (W4_of_ne m ρ c main_arg11 (by decide)).trans (W3_arg11 m ρ c)

/-! ## Up to the second region -/

/-- The second region is entered with the neighbour mean of the hidden rows in its first window's array. -/
theorem W6_mean (c : Dev nD) :
    W6 m ρ c (Proc.devRef .tc main_v30) = aggK (W4 m ρ c (Proc.devRef .tc main_v17)) (m ((c : Thread nD τ).loc main_arg1)) := by
  show StableHlo.after hostOps1_1 (StableHlo.after hostOps1 (W4 m ρ c)) (Proc.devRef .tc main_v30) = _
  simp only [hostOps1_1, hostOps1]
  after_results_simp
  simp only [TRef.ofBuf, TRef.toBuf, cast_eq]
  rw [W4_src, W4_dst]
  rfl

/-- The hidden array passes through the second stretch unchanged. -/
theorem W6_hid (c : Dev nD) : W6 m ρ c (Proc.devRef .tc main_v17) = W4 m ρ c (Proc.devRef .tc main_v17) := by
  show StableHlo.after hostOps1_1 (StableHlo.after hostOps1 (W4 m ρ c)) (Proc.devRef .tc main_v17) = _
  simp only [hostOps1_1, hostOps1]
  after_results_simp

theorem W6_arg9 (c : Dev nD) : W6 m ρ c (Proc.devRef .tc main_arg9) = m ((c : Thread nD τ).loc main_arg9) := by
  refine Eq.trans ?_ (W4_arg9 m ρ c)
  show StableHlo.after hostOps1_1 (StableHlo.after hostOps1 (W4 m ρ c)) (Proc.devRef .tc main_arg9) = _
  simp only [hostOps1_1, hostOps1]
  after_results_simp

theorem W6_arg10 (c : Dev nD) : W6 m ρ c (Proc.devRef .tc main_arg10) = m ((c : Thread nD τ).loc main_arg10) := by
  refine Eq.trans ?_ (W4_arg10 m ρ c)
  show StableHlo.after hostOps1_1 (StableHlo.after hostOps1 (W4 m ρ c)) (Proc.devRef .tc main_arg10) = _
  simp only [hostOps1_1, hostOps1]
  after_results_simp

theorem W6_arg11 (c : Dev nD) : W6 m ρ c (Proc.devRef .tc main_arg11) = m ((c : Thread nD τ).loc main_arg11) := by
  refine Eq.trans ?_ (W4_arg11 m ρ c)
  show StableHlo.after hostOps1_1 (StableHlo.after hostOps1 (W4 m ρ c)) (Proc.devRef .tc main_arg11) = _
  simp only [hostOps1_1, hostOps1]
  after_results_simp

/-! ## The result -/

/-- The result is what the second region's write-backs leave in its output window's array. -/
theorem W7_out (c : Dev nD) : W7 m ρ c (Proc.devRef .tc main_v31) = (dat1 (V6 m ρ) c).arrAt 5 cfg1.N :=
  W7_arr m ρ c 5

end Cert.Sage.KHost

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«410555_j80676665688558_1_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.Spec.lean ====
/-
  What the two-layer mean-aggregation network computes, entry by entry, on the extended reals.

  A node's hidden row is the neighbour mean `a` and the node's own row `x`, each multiplied into its weight matrix,
  the two products added, the bias added, then normalised with running statistics — the difference from the mean
  scaled by `γ` and by the reciprocal square root of the variance plus `ε`, then shifted by `β` — and capped below by
  zero. The output row is the same affine map without the normalisation and without the cap. Both programs
  compute exactly these expressions in exactly this order, so the functions below are stated once and each side is
  shown to be them; no law of the extended reals beyond reading each operation at an entry is needed.
-/
import Idealize.ShloMosaic.PureOps.Ideal
import Idealize.ShloMosaic.Lib.ValueIdx
import proofs.«410555_j80676665688558_1_alg».proof.Proof.LibRowOps

noncomputable section

namespace Cert.Sage

open Idealize.ShloMosaic Idealize.ShloMosaic.ValueIdx Cert.Lib

/-- The word of `ε = 1e-5` in f32, the same word in both programs. -/
abbrev epsW : BitVec 32 := 0x3727C5AC#32
/-- The word of `0` in f32. -/
abbrev zeroW : BitVec 32 := 0x00000000#32

/-- Entry `j` of a node's hidden row: from the node's neighbour mean `a` and own row `x` (each of length `128`),
    `max (γ_j · ((a·Wl)_j + (x·Wr)_j + b_j − μ_j) · rsqrt(σ²_j + ε) + β_j) 0`. -/
def hidRow (a x : Fin 128 → EReal) (Wl Wr : (⟨2, ![128, 128]⟩ : Shape).Idx → EReal)
    (b g be mn vr : (⟨1, ![128]⟩ : Shape).Idx → EReal) (j : Fin 128) : EReal :=
  max (g (ix1 j) * (projRow a Wl j + projRow x Wr j + b (ix1 j) - mn (ix1 j))
        * Ideal.rsqrt (vr (ix1 j) + Ideal.ofBits .f32 epsW) + be (ix1 j))
    (Ideal.ofBits .f32 zeroW)

/-- Entry `j` of a node's output row: `(a·Wl)_j + (h·Wr)_j + b_j`, from the neighbour mean `a` of the hidden rows
    and the node's own hidden row `h`. -/
def outRow (a h : Fin 128 → EReal) (Wl Wr : (⟨2, ![128, 64]⟩ : Shape).Idx → EReal)
    (b : (⟨1, ![64]⟩ : Shape).Idx → EReal) (j : Fin 64) : EReal :=
  projRow a Wl j + projRow h Wr j + b (ix1 j)

/-- The hidden layer on `M` nodes: row `i` of the result is `hidRow` of row `i` of `A` and of `X`. -/
def hidArr {M : ℕ} (A X : (⟨2, ![M, 128]⟩ : Shape).Idx → EReal) (Wl Wr : (⟨2, ![128, 128]⟩ : Shape).Idx → EReal)
    (b g be mn vr : (⟨1, ![128]⟩ : Shape).Idx → EReal) : (⟨2, ![M, 128]⟩ : Shape).Idx → EReal :=
  fun i => hidRow (fun k => A (ix2 (i 0) k)) (fun k => X (ix2 (i 0) k)) Wl Wr b g be mn vr (i 1)

/-- The output layer on `M` nodes: row `i` of the result is `outRow` of row `i` of `A` and of `H`. -/
def outArr {M : ℕ} (A H : (⟨2, ![M, 128]⟩ : Shape).Idx → EReal) (Wl Wr : (⟨2, ![128, 64]⟩ : Shape).Idx → EReal)
    (b : (⟨1, ![64]⟩ : Shape).Idx → EReal) : (⟨2, ![M, 64]⟩ : Shape).Idx → EReal :=
  fun i => outRow (fun k => A (ix2 (i 0) k)) (fun k => H (ix2 (i 0) k)) Wl Wr b (i 1)

theorem hidArr_apply {M : ℕ} (A X : (⟨2, ![M, 128]⟩ : Shape).Idx → EReal) (Wl Wr : (⟨2, ![128, 128]⟩ : Shape).Idx → EReal)
    (b g be mn vr : (⟨1, ![128]⟩ : Shape).Idx → EReal) (r : Fin M) (j : Fin 128) :
    hidArr A X Wl Wr b g be mn vr (ix2 r j)
      = hidRow (fun k => A (ix2 r k)) (fun k => X (ix2 r k)) Wl Wr b g be mn vr j := rfl

theorem outArr_apply {M : ℕ} (A H : (⟨2, ![M, 128]⟩ : Shape).Idx → EReal) (Wl Wr : (⟨2, ![128, 64]⟩ : Shape).Idx → EReal)
    (b : (⟨1, ![64]⟩ : Shape).Idx → EReal) (r : Fin M) (j : Fin 64) :
    outArr A H Wl Wr b (ix2 r j) = outRow (fun k => A (ix2 r k)) (fun k => H (ix2 r k)) Wl Wr b j := rfl

end Cert.Sage

end
-- ==== Proof.Region0.lean ====
/-
  The first dense layer, block by block: what the hidden-layer region leaves in its result array.

  The region walks ten points. At point `t` it holds rows `5000 t … 5000 t + 4999` of the neighbour-mean array and of
  the node array, the two `128 × 128` weight matrices and the five length-`128` vectors (bias, scale, shift, running
  mean, running variance) whole, and writes rows `5000 t … 5000 t + 4999` of the result. Entry `(r, j)` of what it
  writes is

    max (γ_j · ((a_r · Wl)_j + (x_r · Wr)_j + b_j − μ_j) · rsqrt (σ²_j + ε) + β_j) 0

  of row `r` of the two blocks: each matrix product's entry is the sum along the contracted axis (changing the
  operands' float format is the identity on the extended reals), each length-`128` vector is read as a `1 × 128` row
  and repeated down the rows, and the operations come in exactly the order `hidRow` spells. Row `r` of a block at
  point `t` is row `5000 t + r` of its array, so point `t` writes block `t` of `hidArr` of the arrays; row `i` of the
  result lies in block `i / 5000`, so the ten blocks cover the array and it ends holding `hidArr` of the arrays the
  region found.
-/
import proofs.«410555_j80676665688558_1_alg».proof.Proof.Gen.KernelIdeal.Frame
import proofs.«410555_j80676665688558_1_alg».proof.Proof.Spec

noncomputable section

namespace Cert.Sage.Region0

open Cert.KernelIdeal Cert.KernelIdeal.Gen Idealize.ShloMosaic Idealize.ShloMosaic.TcCoe Idealize.SL.Sem Idealize.ShloMosaic.ValueIdx Cert.Lib Cert.Sage

variable (V : (c : Dev nD) → (b : Ref sig .tc) → Buf (Elt Ideal) ((c : Thread nD τ).loc b))

/-! ## The body's result at an entry -/

/-- The printed dimension numbers of the two products are the plain ones: axis 1 of a `5000 × 128` block against
    axis 0 of a `128 × 128` matrix, no batch axis. -/
theorem dot_eq_plain : dot_S5000x128_S128x128_S5000x128_1_0_0_1_n_n = DotDims.plain 5000 128 128 := rfl

/-- A length-`128` vector viewed as a `1 × 128` row reads, at `(0, k)`, its entry `k`. -/
theorem rowCast_apply (v : Vec Ideal S128 .f32) (k : Fin 128) :
    shapeCast S1x128 v shapeCasts_S128_S1x128 (ix2 (0 : Fin 1) k) = v (ix1 k) :=
  shapeCast_apply v shapeCasts_S128_S1x128 _ _ (by
    rw [Shape.rowMajor_val_two, Shape.rowMajor_val_one]
    show k.val = 0 * 128 + k.val
    omega)

/-- That row broadcast down the `5000` rows of a block reads, at `(r, k)`, the vector's entry `k`. -/
theorem rowBroadcast_apply (v : Vec Ideal S128 .f32) (r : Fin 5000) (k : Fin 128) :
    broadcastTo S5000x128 (shapeCast S1x128 v shapeCasts_S128_S1x128) broadcasts_S1x128_S5000x128 (ix2 r k) = v (ix1 k) := by
  rw [broadcastTo_row_apply, rowCast_apply]

/-- The reciprocal square root of a vector, at an index, is that of the entry. -/
theorem rsqrt_apply {s : Shape} {φ : FTy} (a : FVec Ideal s φ) (i : s.Idx) : rsqrt a i = Ideal.rsqrt (a i) := rfl

/-- A product of two narrowed operands into the zero accumulator, at `(r, j)`: row `r` of the block against column
    `j` of the matrix (narrowing the format is the identity on the extended reals). -/
theorem product_apply (x : Vec Ideal S5000x128 .f32) (w : Vec Ideal S128x128 .f32) (r : Fin 5000) (j : Fin 128) :
    matmul (F := Ideal) dot_S5000x128_S128x128_S5000x128_1_0_0_1_n_n none (truncf .bf16 x bitsLt_bf16_f32)
        (truncf .bf16 w bitsLt_bf16_f32) (constant S5000x128 .f32 0x00000000#32) (ix2 r j)
      = projRow (fun k => x (ix2 r k)) w j := by
  rw [dot_eq_plain]
  exact matmul_plain_zero_apply 5000 128 128 none _ _ (ix2 r j)

/-- THE BODY'S RESULT AT `(r, j)`: the hidden row's entry `j` of row `r` of the two loaded blocks. -/
theorem payload_apply (x0 x1 : Vec Ideal S5000x128 .f32) (w1 w2 : Vec Ideal S128x128 .f32)
    (b g be mn vr : Vec Ideal S128 .f32) (r : Fin 5000) (j : Fin 128) :
    k0_pay1 x0 x1 w1 w2 b g be mn vr (ix2 r j)
      = hidRow (fun k => x0 (ix2 r k)) (fun k => x1 (ix2 r k)) w1 w2 b g be mn vr j := by
  unfold k0_pay1
  rw [maximumf_apply, addf_apply, mulf_apply, mulf_apply, subf_apply, addf_apply, addf_apply, broadcast_apply,
    shapeCast_self, product_apply, product_apply,
    rowBroadcast_apply, rowBroadcast_apply, rowBroadcast_apply, rowBroadcast_apply,
    broadcastTo_row_apply, rsqrt_apply, addf_apply, rowCast_apply, broadcast_apply]
  rfl

/-! ## A point's blocks as rows of the arrays -/

/-- The zero offsets of the body's whole-buffer loads and of its one store, on two axes and on one. -/
theorem zeros2 : (![0, 0] : Fin 2 → Nat) = fun _ => 0 := funext fun a => by fin_cases a <;> rfl
theorem zeros1 : (![0] : Fin 1 → Nat) = fun _ => 0 := funext fun a => by fin_cases a; rfl

/-- THE RESULT'S ENTRY AT ROW `i 0` OF THE ARRAYS, from the body's result at row `y 0` of the blocks: when row `y 0` of
    each loaded block is row `i 0` of its array and the two columns agree, the body's result at `y` is the hidden
    layer's entry at `i`. -/
theorem point_apply (A X : S50000x128.Idx → EReal) (x0 x1 : Vec Ideal S5000x128 .f32) (w1 w2 : Vec Ideal S128x128 .f32)
    (b g be mn vr : Vec Ideal S128 .f32) (y : S5000x128.Idx) (i : S50000x128.Idx)
    (h0 : ∀ k : Fin 128, x0 (ix2 (y 0) k) = A (ix2 (i 0) k))
    (h1 : ∀ k : Fin 128, x1 (ix2 (y 0) k) = X (ix2 (i 0) k))
    (hj : (i 1).val = (y 1).val) :
    k0_pay1 x0 x1 w1 w2 b g be mn vr y = hidArr A X w1 w2 b g be mn vr i := by
  obtain ⟨r, j, rfl⟩ : ∃ (r : Fin 5000) (j : Fin 128), y = ix2 r j := ⟨y 0, y 1, eq_ix2 y⟩
  obtain ⟨R, j', rfl⟩ : ∃ (R : Fin 50000) (j' : Fin 128), i = ix2 R j' := ⟨i 0, i 1, eq_ix2 i⟩
  obtain rfl : j' = j := Fin.ext hj
  rw [payload_apply, hidArr_apply, show (fun k => x0 (ix2 r k)) = fun k => A (ix2 R k) from funext h0,
    show (fun k => x1 (ix2 r k)) = fun k => X (ix2 R k) from funext h1]

/-- The printed index maps, decided over the ten points: the three row-blocked windows (the neighbour means, the
    nodes' own rows, the result) sit at block `t` of the rows and block `0` of the columns; every whole-array window
    at block `0`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0
    ∧ win0_9.index t (0 : Fin 2) = t.val ∧ win0_9.index t (1 : Fin 2) = 0 :=
  (by decide +kernel : ∀ t : Fin grid0.N, _)

/-- Window 0's block at point `t`, at `y`, is the neighbour-mean array at row `t · 5000 + y 0`, column `y 1`. -/
theorem means_apply (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_v16 : S50000x128.Idx → EReal) i := by
  obtain ⟨e0, e1, -⟩ := index_facts t
  unfold iblk0
  rw [View.read_apply]
  show V c main_v16 _ = V c main_v16 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- Window 1's block at point `t`, at `y`, is the node array at row `t · 5000 + y 0`, column `y 1`. -/
theorem nodes_apply (c : Dev nD) (t : Fin cfg0.N) (y : S5000x128.Idx) (i : S50000x128.Idx)
    (h0 : (i 0).val = t.val * 5000 + (y 0).val) (h1 : (i 1).val = (y 1).val) :
    (iblk0 V c 1 t : Vec Ideal S5000x128 .f32) y = (V c main_arg0 : S50000x128.Idx → EReal) i := by
  obtain ⟨-, -, e0, e1, -⟩ := index_facts t
  unfold iblk0
  rw [View.read_apply]
  show V c main_arg0 _ = V c main_arg0 _
  congr 1
  funext a
  apply Fin.ext
  match a with
  | ⟨0, _⟩ => show win0_1.index t 0 * 5000 + 1 * (y 0).val = (i 0).val; rw [e0, h0]; omega
  | ⟨1, _⟩ => show win0_1.index t 1 * 128 + 1 * (y 1).val = (i 1).val; rw [e1, h1]; omega

/-! ## The whole-array windows: the one block, at offset zero, is the array -/

/-- Window 2's block at every point is the neighbours' weight matrix. -/
theorem weightL_eq (c : Dev nD) (t : Fin cfg0.N) : (iblk0 V c 2 t : Vec Ideal S128x128 .f32) = V c main_arg2 := by
  obtain ⟨-, -, -, -, e0, e1, -⟩ := index_facts t
  funext y
  unfold iblk0
  rw [View.read_apply]
  show V c main_arg2 _ = V c main_arg2 y
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega
/-- Window 3's block at every point is the nodes' weight matrix. -/
theorem weightR_eq (c : Dev nD) (t : Fin cfg0.N) : (iblk0 V c 3 t : Vec Ideal S128x128 .f32) = V c main_arg3 := by
  obtain ⟨-, -, -, -, -, -, e0, e1, -⟩ := index_facts t
  funext y
  unfold iblk0
  rw [View.read_apply]
  show V c main_arg3 _ = V c main_arg3 y
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega
/-- Window 4's block at every point is the bias vector. -/
theorem bias_eq (c : Dev nD) (t : Fin cfg0.N) : (iblk0 V c 4 t : Vec Ideal S128 .f32) = V c main_arg4 := by
  obtain ⟨-, -, -, -, -, -, -, -, e0, -⟩ := index_facts t
  funext y
  unfold iblk0
  rw [View.read_apply]
  show V c main_arg4 _ = V c main_arg4 y
  congr 1
  funext a
  apply Fin.ext
  match a with
  | ⟨0, _⟩ => show win0_4.index t 0 * 128 + 1 * (y 0).val = (y 0).val; rw [e0]; omega
/-- Window 5's block at every point is the normalisation's scale. -/
theorem scale_eq (c : Dev nD) (t : Fin cfg0.N) : (iblk0 V c 5 t : Vec Ideal S128 .f32) = V c main_arg5 := by
  obtain ⟨-, -, -, -, -, -, -, -, -, e0, -⟩ := index_facts t
  funext y
  unfold iblk0
  rw [View.read_apply]
  show V c main_arg5 _ = V c main_arg5 y
  congr 1
  funext a
  apply Fin.ext
  match a with
  | ⟨0, _⟩ => show win0_5.index t 0 * 128 + 1 * (y 0).val = (y 0).val; rw [e0]; omega
/-- Window 6's block at every point is the normalisation's shift. -/
theorem shift_eq (c : Dev nD) (t : Fin cfg0.N) : (iblk0 V c 6 t : Vec Ideal S128 .f32) = V c main_arg6 := by
  obtain ⟨-, -, -, -, -, -, -, -, -, -, e0, -⟩ := index_facts t
  funext y
  unfold iblk0
  rw [View.read_apply]
  show V c main_arg6 _ = V c main_arg6 y
  congr 1
  funext a
  apply Fin.ext
  match a with
  | ⟨0, _⟩ => show win0_6.index t 0 * 128 + 1 * (y 0).val = (y 0).val; rw [e0]; omega
/-- Window 7's block at every point is the running mean. -/
theorem mean_eq (c : Dev nD) (t : Fin cfg0.N) : (iblk0 V c 7 t : Vec Ideal S128 .f32) = V c main_arg7 := by
  obtain ⟨-, -, -, -, -, -, -, -, -, -, -, e0, -⟩ := index_facts t
  funext y
  unfold iblk0
  rw [View.read_apply]
  show V c main_arg7 _ = V c main_arg7 y
  congr 1
  funext a
  apply Fin.ext
  match a with
  | ⟨0, _⟩ => show win0_7.index t 0 * 128 + 1 * (y 0).val = (y 0).val; rw [e0]; omega
/-- Window 8's block at every point is the running variance. -/
theorem var_eq (c : Dev nD) (t : Fin cfg0.N) : (iblk0 V c 8 t : Vec Ideal S128 .f32) = V c main_arg8 := by
  obtain ⟨-, -, -, -, -, -, -, -, -, -, -, -, e0, -⟩ := index_facts t
  funext y
  unfold iblk0
  rw [View.read_apply]
  show V c main_arg8 _ = V c main_arg8 y
  congr 1
  funext a
  apply Fin.ext
  match a with
  | ⟨0, _⟩ => show win0_8.index t 0 * 128 + 1 * (y 0).val = (y 0).val; rw [e0]; omega

/-! ## What a point writes back, and the array after the last point -/

/-- WHAT POINT `t` WRITES BACK is block `t` of the hidden layer of the arrays the region finds: the body's result
    at row `y 0` of the blocks is the hidden row of row `t · 5000 + y 0` of the two row-blocked arrays, which is where
    the result window's block at `t` puts it. -/
theorem flushed_eq (c : Dev nD) (t : Fin cfg0.N) :
    (dat0 (F := Ideal) V c).flushed 9 t
      = ((cfg0.win 9).blk t).view.read (Elt Ideal)
          (hidArr (V c main_v16) (V c main_arg0) (V c main_arg2) (V c main_arg3) (V c main_arg4) (V c main_arg5)
            (V c main_arg6) (V c main_arg7) (V c main_arg8)) := by
  show (cfg0.win 9).cut (grid0.coords t) ((dat0 V c).after 9 t) = _
  rw [after0_9]
  unfold out0_9
  rw [View.canon_unit_zero zeros2]
  simp only [View.ld_unit_zero (S := S5000x128) zeros2, View.ld_unit_zero (S := S128x128) zeros2,
    View.ld_unit_zero (S := S128) zeros1]
  rw [weightL_eq, weightR_eq, bias_eq, scale_eq, shift_eq, mean_eq, var_eq]
  obtain ⟨-, -, -, -, -, -, -, -, -, -, -, -, -, e0, e1⟩ := index_facts t
  funext y
  show k0_pay1 (iblk0 V c 0 t) (iblk0 V c 1 t) (V c main_arg2) (V c main_arg3) (V c main_arg4) (V c main_arg5)
      (V c main_arg6) (V c main_arg7) (V c main_arg8) y
    = hidArr (V c main_v16) (V c main_arg0) (V c main_arg2) (V c main_arg3) (V c main_arg4) (V c main_arg5)
      (V c main_arg6) (V c main_arg7) (V c main_arg8) (((cfg0.win 9).blk t).view.emb y)
  have r0 : ((((cfg0.win 9).blk t).view.emb y) 0).val = t.val * 5000 + (y 0).val := by
    show win0_9.index t 0 * 5000 + 1 * (y 0).val = _; rw [e0]; omega
  have r1 : ((((cfg0.win 9).blk t).view.emb y) 1).val = (y 1).val := by
    show win0_9.index t 1 * 128 + 1 * (y 1).val = _; rw [e1]; omega
  refine point_apply _ _ _ _ _ _ _ _ _ _ _ y _ (fun k => ?_) (fun k => ?_) r1
  · exact means_apply V c t _ _ r0 rfl
  · exact nodes_apply V c t _ _ r0 rfl

/-- An index of the result array is in point `t`'s block iff each coordinate is in the block's range on its axis. -/
theorem mem_block (t : Fin cfg0.N) (i : S50000x128.Idx) :
    i ∈ ((cfg0.win 9).blk t).view.set
      ↔ ∀ a : Fin 2, win0_9.index t a * S5000x128.size a ≤ (i a).val
          ∧ (i a).val < win0_9.index t a * S5000x128.size a + S5000x128.size a := by
  show i ∈ ((View.whole main_v17).slice (win0_9.rect t)).set ↔ _
  rw [View.set_slice_whole, Rect.mem_set_unit]
  exact Iff.rfl

/-- Every index of the result array is in some point's block: row `r` lies in block `r / 5000`. -/
theorem covered (i : S50000x128.Idx) :
    ∃ t : Fin cfg0.N, (cfg0.win 9).flush t = true ∧ i ∈ ((cfg0.win 9).blk t).view.set := by
  have hi0 : (i 0).val < 50000 := idx2_lt0 i
  have hi1 : (i 1).val < 128 := idx2_lt1 i
  have hN : cfg0.N = 10 := N_0
  let t : Fin cfg0.N := ⟨(i 0).val / 5000, by omega⟩
  obtain ⟨-, -, -, -, -, -, -, -, -, -, -, -, -, e0, e1⟩ := index_facts t
  have ht : t.val = (i 0).val / 5000 := rfl
  refine ⟨t, flush0_9 t, ?_⟩
  rw [mem_block]
  intro a
  match a with
  | ⟨0, _⟩ =>
    show win0_9.index t 0 * 5000 ≤ (i 0).val ∧ (i 0).val < win0_9.index t 0 * 5000 + 5000
    rw [e0, ht]; omega
  | ⟨1, _⟩ =>
    show win0_9.index t 1 * 128 ≤ (i 1).val ∧ (i 1).val < win0_9.index t 1 * 128 + 128
    rw [e1]; omega

/-- THE RESULT ARRAY AFTER THE REGION: the hidden layer of the arrays the region finds. -/
theorem final0 (c : Dev nD) :
    (dat0 (F := Ideal) V c).arrAt 9 cfg0.N
      = hidArr (V c main_v16) (V c main_arg0) (V c main_arg2) (V c main_arg3) (V c main_arg4) (V c main_arg5) (V c main_arg6) (V c main_arg7) (V c main_arg8) :=
  (dat0 (F := Ideal) V c).arrAt_eq_of_cover 9 _ (fun t _ => flushed_eq V c t) covered

end Cert.Sage.Region0

end
-- ==== Proof.Region1.lean ====
/-
  The second dense layer, from its blocks to the whole output array.

  The layer runs over ten blocks of 5000 rows. At a block it holds 5000 rows of the neighbour-mean array and the same
  5000 rows of the hidden array, both weight matrices whole and the bias whole, and leaves 5000 rows of the output:
  each row is the mean row times the left weights plus the hidden row times the right weights plus the bias. Row
  `r` of block `t` is row `t · 5000 + r` of every one of the three long arrays, and column `k` of a block is column
  `k` of the array, so what a block leaves is that block of the output layer of the whole arrays. The ten blocks cover
  all 50000 rows (row `i` lies in block `i / 5000`), so the output array ends as the output layer of the arrays.
-/
import proofs.«410555_j80676665688558_1_alg».proof.Proof.Gen.KernelIdeal.Frame
import proofs.«410555_j80676665688558_1_alg».proof.Proof.Spec

noncomputable section

namespace Cert.Sage.Region1

open Cert.KernelIdeal Cert.KernelIdeal.Gen Idealize.ShloMosaic Idealize.ShloMosaic.TcCoe Idealize.SL.Sem Idealize.ShloMosaic.ValueIdx Cert.Lib Cert.Sage

/-! ## One entry of a block's result -/

/-- The layer's matrix products contract axis 1 of a `5000 × 128` block with axis 0 of a `128 × 64` matrix. -/
theorem dot_eq_plain : dot_S5000x128_S128x64_S5000x64_1_0_0_1_n_n = DotDims.plain 5000 128 64 := rfl

/-- The bias viewed as a one-row matrix has the bias entry `k` at `(0, k)`. -/
theorem biasRow_apply (b : FVec Ideal S64 .f32) (k : Fin 64) :
    shapeCast S1x64 b shapeCasts_S64_S1x64 (ix2 (0 : Fin 1) k) = b (ix1 k) :=
  shapeCast_apply b shapeCasts_S64_S1x64 _ _ (by
    rw [Shape.rowMajor_val_two, Shape.rowMajor_val_one]
    show k.val = 0 * 64 + k.val
    omega)

/-- Entry `(r, j)` of what a block leaves: the output row of row `r` of the mean block and of the hidden block.
    The changes of float format are the identity on the extended reals and the two accumulators are zero. -/
theorem payload_apply (x0 x1 : Vec Ideal S5000x128 .f32) (w1 w2 : Vec Ideal S128x64 .f32) (b : Vec Ideal S64 .f32)
    (r : Fin 5000) (j : Fin 64) :
    k1_pay1 x0 x1 w1 w2 b (ix2 r j)
      = outRow (fun k => x0 (ix2 r k)) (fun k => x1 (ix2 r k)) w1 w2 b j := by
  unfold k1_pay1
  simp only [matmul]
  rw [addf_apply, addf_apply, dot_eq_plain, matmul_plain_zero_apply, matmul_plain_zero_apply, broadcastTo_row_apply,
    biasRow_apply]
  simp only [truncf_apply, shapeCast_self]
  rfl

/-- The same entry against whole arrays: when row `r` of the two blocks is row `i 0` of the arrays `A` and `H`, the
    blocks of the weights and the bias are the arrays themselves, and the column is `i 1`, the entry is entry `i` of
    the output layer of the arrays. -/
theorem payload_eq_outArr (A H : S50000x128.Idx → EReal) (Wl Wr : S128x64.Idx → EReal) (b : S64.Idx → EReal)
    (x0 x1 : Vec Ideal S5000x128 .f32) (w1 w2 : Vec Ideal S128x64 .f32) (bb : Vec Ideal S64 .f32)
    (r : Fin 5000) (j : Fin 64) (i : S50000x64.Idx)
    (h0 : ∀ k : Fin 128, x0 (ix2 r k) = A (ix2 (i 0) k)) (h1 : ∀ k : Fin 128, x1 (ix2 r k) = H (ix2 (i 0) k))
    (h2 : w1 = Wl) (h3 : w2 = Wr) (h4 : bb = b) (hj : i 1 = j) :
    k1_pay1 x0 x1 w1 w2 bb (ix2 r j) = outArr A H Wl Wr b i := by
  rw [payload_apply, h2, h3, h4, funext h0, funext h1]
  subst hj
  rfl

/-! ## Where a block sits in its array -/

theorem zeros2 : (![0, 0] : Fin 2 → Nat) = fun _ => 0 := funext fun a => by fin_cases a <;> rfl
theorem zeros1 : (![0] : Fin 1 → Nat) = fun _ => 0 := funext fun a => by fin_cases a <;> rfl

/-- The block indices at every point of the grid: the mean block and the hidden block move down the rows with the
    output block, none of them moves along the columns, the weights and the bias stay whole, and the output block's
    row index is the point's number. -/
theorem block_indices : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) ≤ 9 ∧ win1_5.index t (1 : Fin 2) = 0 :=
  (by decide +kernel : ∀ t : Fin grid1.N, _)

/-- Every one of the ten row blocks of the output is some point's. -/
theorem block_onto : ∀ q : Fin 10, ∃ t : Fin cfg1.N, win1_5.index t = ![q.val, 0] :=
  (by decide +kernel : ∀ q : Fin 10, ∃ t : Fin grid1.N, win1_5.index t = ![q.val, 0])

variable (V : (c : Dev nD) → (b : Ref sig .tc) → Buf (Elt Ideal) ((c : Thread nD τ).loc b))

/-- Row `r` of the mean block at point `t` is the row of the mean array that row `r` of the output block is. -/
theorem meanBlock_apply (c : Dev nD) (t : Fin cfg1.N) (r : Fin 5000) (j : Fin 64) (k : Fin 128) :
    iblk1 V c 0 t (ix2 r k) = V c main_v30 (ix2 ((((cfg1.win 5).blk t).view.emb (ix2 r j)) 0) k) := by
  obtain ⟨e0, e1, -⟩ := block_indices t
  show V c main_v30 (((cfg1.win 0).blk t).view.emb (ix2 r k)) = _
  have h : ((cfg1.win 0).blk t).view.emb (ix2 r k) = ix2 ((((cfg1.win 5).blk t).view.emb (ix2 r j)) 0) k := by
    funext a; apply Fin.ext
    match a with
    | ⟨0, _⟩ => show win1_0.index t (0 : Fin 2) * 5000 + 1 * r.val = win1_5.index t (0 : Fin 2) * 5000 + 1 * r.val; omega
    | ⟨1, _⟩ => show win1_0.index t (1 : Fin 2) * 128 + 1 * k.val = k.val; omega
  exact congrArg (V c main_v30) h

/-- Row `r` of the hidden block at point `t` is the row of the hidden array that row `r` of the output block is. -/
theorem hiddenBlock_apply (c : Dev nD) (t : Fin cfg1.N) (r : Fin 5000) (j : Fin 64) (k : Fin 128) :
    iblk1 V c 1 t (ix2 r k) = V c main_v17 (ix2 ((((cfg1.win 5).blk t).view.emb (ix2 r j)) 0) k) := by
  obtain ⟨-, -, e0, e1, -⟩ := block_indices t
  show V c main_v17 (((cfg1.win 1).blk t).view.emb (ix2 r k)) = _
  have h : ((cfg1.win 1).blk t).view.emb (ix2 r k) = ix2 ((((cfg1.win 5).blk t).view.emb (ix2 r j)) 0) k := by
    funext a; apply Fin.ext
    match a with
    | ⟨0, _⟩ => show win1_1.index t (0 : Fin 2) * 5000 + 1 * r.val = win1_5.index t (0 : Fin 2) * 5000 + 1 * r.val; omega
    | ⟨1, _⟩ => show win1_1.index t (1 : Fin 2) * 128 + 1 * k.val = k.val; omega
  exact congrArg (V c main_v17) h

/-- The left weights' block is the whole matrix at every point. -/
theorem leftWeights_eq (c : Dev nD) (t : Fin cfg1.N) : iblk1 V c 2 t = V c main_arg9 := by
  obtain ⟨-, -, -, -, e0, e1, -⟩ := block_indices t
  funext y
  show V c main_arg9 (((cfg1.win 2).blk t).view.emb y) = _
  have h : ((cfg1.win 2).blk t).view.emb y = y := by
    funext a; apply Fin.ext
    match a with
    | ⟨0, _⟩ => show win1_2.index t (0 : Fin 2) * 128 + 1 * (y 0).val = (y 0).val; omega
    | ⟨1, _⟩ => show win1_2.index t (1 : Fin 2) * 64 + 1 * (y 1).val = (y 1).val; omega
  exact congrArg (V c main_arg9) h

/-- The right weights' block is the whole matrix at every point. -/
theorem rightWeights_eq (c : Dev nD) (t : Fin cfg1.N) : iblk1 V c 3 t = V c main_arg10 := by
  obtain ⟨-, -, -, -, -, -, e0, e1, -⟩ := block_indices t
  funext y
  show V c main_arg10 (((cfg1.win 3).blk t).view.emb y) = _
  have h : ((cfg1.win 3).blk t).view.emb y = y := by
    funext a; apply Fin.ext
    match a with
    | ⟨0, _⟩ => show win1_3.index t (0 : Fin 2) * 128 + 1 * (y 0).val = (y 0).val; omega
    | ⟨1, _⟩ => show win1_3.index t (1 : Fin 2) * 64 + 1 * (y 1).val = (y 1).val; omega
  exact congrArg (V c main_arg10) h

/-- The bias block is the whole bias at every point. -/
theorem bias_eq (c : Dev nD) (t : Fin cfg1.N) : iblk1 V c 4 t = V c main_arg11 := by
  obtain ⟨-, -, -, -, -, -, -, -, e0, -⟩ := block_indices t
  funext y
  show V c main_arg11 (((cfg1.win 4).blk t).view.emb y) = _
  have h : ((cfg1.win 4).blk t).view.emb y = y := by
    funext a; apply Fin.ext
    match a with
    | ⟨0, _⟩ => show win1_4.index t (0 : Fin 1) * 64 + 1 * (y 0).val = (y 0).val; omega
  exact congrArg (V c main_arg11) h

/-- Column `j` of the output block is column `j` of the output array. -/
theorem outBlock_col (t : Fin cfg1.N) (r : Fin 5000) (j : Fin 64) :
    (((cfg1.win 5).blk t).view.emb (ix2 r j)) 1 = j := by
  obtain ⟨-, -, -, -, -, -, -, -, -, -, e1⟩ := block_indices t
  apply Fin.ext
  show win1_5.index t (1 : Fin 2) * 64 + 1 * j.val = j.val
  omega

/-! ## What a point writes back, and the whole array -/

/-- What point `t` writes back is block `t` of the output layer of the arrays the region finds. -/
theorem flushed_eq_outArr (c : Dev nD) (t : Fin cfg1.N) :
    (dat1 (F := Ideal) V c).flushed 5 t
      = ((cfg1.win 5).blk t).view.read (Elt Ideal)
          (outArr (V c main_v30) (V c main_v17) (V c main_arg9) (V c main_arg10) (V c main_arg11)) := by
  show (cfg1.win 5).cut (grid1.coords t) ((dat1 (F := Ideal) V c).after 5 t) = _
  rw [after1_5]
  unfold out1_5
  rw [View.canon_unit_zero zeros2]
  simp only [View.ld_unit_zero (S := S5000x128) zeros2, View.ld_unit_zero (S := S128x64) zeros2,
    View.ld_unit_zero (S := S64) zeros1]
  funext y
  obtain ⟨r, j, rfl⟩ : ∃ (r : Fin 5000) (j : Fin 64), y = ix2 r j := ⟨y 0, y 1, eq_ix2 y⟩
  show k1_pay1 (iblk1 V c 0 t) (iblk1 V c 1 t) (iblk1 V c 2 t) (iblk1 V c 3 t) (iblk1 V c 4 t) (ix2 r j)
    = outArr (V c main_v30) (V c main_v17) (V c main_arg9) (V c main_arg10) (V c main_arg11)
        (((cfg1.win 5).blk t).view.emb (ix2 r j))
  exact payload_eq_outArr (V c main_v30) (V c main_v17) (V c main_arg9) (V c main_arg10) (V c main_arg11)
    (iblk1 V c 0 t) (iblk1 V c 1 t) (iblk1 V c 2 t) (iblk1 V c 3 t) (iblk1 V c 4 t) r j
    (((cfg1.win 5).blk t).view.emb (ix2 r j))
    (fun k => meanBlock_apply V c t r j k) (fun k => hiddenBlock_apply V c t r j k)
    (leftWeights_eq V c t) (rightWeights_eq V c t) (bias_eq V c t) (outBlock_col t r j)

/-- An index of the output array is in point `t`'s block iff each coordinate is in the block's range on its axis. -/
theorem mem_outBlock (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v31).slice (win1_5.rect t)).set ↔ _
  rw [View.set_slice_whole, Rect.mem_set_unit]
  exact Iff.rfl

/-- Every index of the output array is in some point's block: row `i 0` lies in row block `i 0 / 5000`. -/
theorem outBlocks_cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := block_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_outBlock]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the region: the output layer of the mean array, the hidden array, the two weight matrices
    and the bias as the region finds them. -/
theorem final1 (c : Dev nD) :
    (dat1 (F := Ideal) V c).arrAt 5 cfg1.N
      = outArr (V c main_v30) (V c main_v17) (V c main_arg9) (V c main_arg10) (V c main_arg11) :=
  (dat1 (F := Ideal) V c).arrAt_eq_of_cover 5
    (outArr (V c main_v30) (V c main_v17) (V c main_arg9) (V c main_arg10) (V c main_arg11))
    (fun t _ => flushed_eq_outArr V c t) outBlocks_cover

end Cert.Sage.Region1

end
-- ==== Proof.AggEq.lean ====
/-
  The neighbour mean of the two programs agrees where every source index is in range, and the precondition says
  that every source index is.

  The kernel program gathers row `start e` of the node features for every edge `e` and then keeps the gathered row
  only where `0 ≤ start e ≤ 49999`, writing a fill word elsewhere; the reference program gathers alone. Here
  `start e` is the source index `n` of edge `e` counted from the end where negative: `n + 50000` for `n < 0`, else
  `n`. For `-50000 ≤ n < 50000` that is a number in `[0, 49999]`, so both comparisons hold at every edge, the
  reduce by `and` over the start column's one-entry axis is one at every edge, the select keeps every gathered row,
  and what is left of the two spellings is the same operations over the same records. The precondition's last
  conjunct is the conjunction over all edges of `-50000 ≤ n` and `n < 50000`, signed, over row 0 of the edge array.
-/
import proofs.«410555_j80676665688558_1_alg».proof.Defs
import proofs.«410555_j80676665688558_1_alg».proof.Proof.Gen.Pre_finite_inputs
import proofs.«410555_j80676665688558_1_alg».proof.Proof.AggDefs
import Idealize.ShloMosaic.Lib.ReduceAll
import Idealize.ShloMosaic.Lib.ValueIdx
import Idealize.ShloMosaic.Lib.Pipeline.Value

noncomputable section

namespace Cert.Sage.AggEq

open Idealize.ShloMosaic Idealize.ShloMosaic.ValueIdx

/-! ## Words -/

theorem ofBool_eq_one (b : Bool) : BitVec.ofBool b = 1#1 ↔ b = true := by cases b <;> decide

/-- A source index counted from the end where negative: `n + 50000` for `n < 0`, else `n`. -/
def normWord (w : BitVec 32) : BitVec 32 :=
  Scalar.select (IntOp.cmpi .slt w 0#32) (IntOp.addi w 50000#32) w

theorem zero_toInt : (0#32 : BitVec 32).toInt = 0 := by decide

/-- A negative word is moved up by 50000. -/
theorem normWord_neg (w : BitVec 32) (hn : w.toInt < 0) : normWord w = w + 50000#32 := by
  have hc : IntOp.cmpi .slt w 0#32 = 1#1 := by
    unfold IntOp.cmpi
    rw [ofBool_eq_one]
    simp only [BitVec.slt, zero_toInt, decide_eq_true_eq]
    exact hn
  unfold normWord
  rw [hc]
  exact select_one _ _

/-- A word that is not negative stays. -/
theorem normWord_nonneg (w : BitVec 32) (hn : ¬ w.toInt < 0) : normWord w = w := by
  have hc : IntOp.cmpi .slt w 0#32 = 0#1 := by
    unfold IntOp.cmpi
    apply eq_zero_of_ne_one
    rw [ofBool_eq_one]
    simp only [BitVec.slt, zero_toInt, decide_eq_true_eq]
    exact hn
  unfold normWord
  rw [hc]
  exact select_zero _ _

/-- A word whose signed value lies in `[0, 49999]` passes both comparisons. -/
theorem cmp_of_range (n : BitVec 32) (h0 : 0 ≤ n.toInt) (h1 : n.toInt ≤ 49999) :
    IntOp.cmpi .sge n 0#32 = 1#1 ∧ IntOp.cmpi .sle n 49999#32 = 1#1 := by
  have c : (49999#32 : BitVec 32).toInt = 49999 := by decide
  unfold IntOp.cmpi
  rw [ofBool_eq_one, ofBool_eq_one]
  simp only [BitVec.sle, zero_toInt, c, decide_eq_true_eq]
  exact ⟨h0, h1⟩

/-- A word in `[-50000, 50000)`, counted from the end where negative, lies in `[0, 49999]`: the sum `w + 50000` of a
    negative such word does not wrap. -/
theorem normWord_range (w : BitVec 32) (h0 : -50000 ≤ w.toInt) (h1 : w.toInt < 50000) :
    IntOp.cmpi .sge (normWord w) 0#32 = 1#1 ∧ IntOp.cmpi .sle (normWord w) 49999#32 = 1#1 := by
  by_cases hn : w.toInt < 0
  · rw [normWord_neg w hn]
    have e : (w + 50000#32).toInt = w.toInt + 50000 := by
      have c5 : (50000#32 : BitVec 32).toInt = 50000 := by decide
      rw [BitVec.toInt_add, c5]
      exact Int.bmod_eq_of_le (by omega) (by omega)
    exact cmp_of_range _ (by rw [e]; omega) (by rw [e]; omega)
  · rw [normWord_nonneg w hn]
    exact cmp_of_range _ (by omega) (by omega)

/-! ## Row 0 of the edge array read at an edge -/

/-- Row 0 of a `[2, 600000]` array, sliced out and cast to a vector, read at `k` is the array at `(0, k)`: the slice
    starts at `(0, 0)`, and position `k` of the vector is position `0 * 600000 + k` of the one-row matrix. -/
theorem row0_apply {α : Type} (x : (⟨2, ![2, 600000]⟩ : Shape).Idx → α)
    (hsl : (⟨2, ![2, 600000]⟩ : Shape).Slices ![0, 0] ⟨2, ![1, 600000]⟩)
    (hsc : (⟨2, ![1, 600000]⟩ : Shape).ShapeCasts ⟨1, ![600000]⟩) (k : (⟨1, ![600000]⟩ : Shape).Idx) :
    shapeCast ⟨1, ![600000]⟩ (extractStridedSlice ⟨2, ![1, 600000]⟩ ![0, 0] x hsl) hsc k = x (ix2 (0 : Fin 2) (k 0)) := by
  refine (shapeCast_apply _ hsc k (ix2 (0 : Fin 1) (k 0)) ?_).trans ?_
  · rewrite [Shape.rowMajor_val_two, Shape.rowMajor_val_one]
    show 0 * 600000 + (k 0).val = (k 0).val
    omega
  · exact extractStridedSlice_apply ![0, 0] x hsl (ix2 (0 : Fin 1) (k 0)) (ix2 (0 : Fin 2) (k 0))
      (fun a => match a with
        | ⟨0, _⟩ => by show 0 = 0 + 0; omega
        | ⟨1, _⟩ => by show (k 0).val = 0 + (k 0).val; omega)

/-! ## A reduce by `and` of ones -/

/-- A reduce by `and` of an all-ones array, from one, is one at every result index. -/
theorem reduce_andi_ones {s t u : Shape} {axes : List (Fin s.rank)} (init : u.Idx → BitVec 1) (h : s.ReducesTo axes t)
    (hu : 0 < u.numel) (hinit : init (Shape.Idx.first hu) = 1#1) (j : t.Idx) :
    Host.reduce IntOp.andi (fun _ : s.Idx => (1#1 : BitVec 1)) init h hu j = 1#1 := by
  rw [Host.reduce_eq_foldl, hinit]
  generalize (((List.finRange s.numel).map s.rowMajor.symm).filter fun i => h.drop i = j) = l
  induction l with
  | nil => rfl
  | cons a l ih =>
    rw [List.foldl_cons, show IntOp.andi (1#1 : BitVec 1) 1#1 = 1#1 from by decide]
    exact ih

/-! ## Every edge's bit is set -/

section K
open Cert.KernelIdeal Cert.KernelIdeal.Gen

/-- Entry `k` of the source nodes is row 0 of the edge array at column `k`. -/
theorem srcK_apply (ei : IVec S2x600000 32) (k : S600000.Idx) : srcK ei k = ei (ix2 (0 : Fin 2) (k 0)) := by
  unfold srcK
  exact row0_apply ei slices_S2x600000_S1x600000_0_0 shapeCasts_S1x600000_S600000 k

/-- Entry `k` of the start indices is the edge array's `(0, k)` counted from the end where negative. -/
theorem normK_apply (ei : IVec S2x600000 32) (k : S600000.Idx) : normK ei k = normWord (ei (ix2 (0 : Fin 2) (k 0))) := by
  unfold normK
  rw [select_apply]
  show Scalar.select (IntOp.cmpi .slt (srcK ei k) 0#32) (IntOp.addi (srcK ei k) 50000#32) (srcK ei k) = _
  rw [srcK_apply]
  rfl

/-- Row `j` of the start-index column is an entry of the start indices. -/
theorem startK_apply (ei : IVec S2x600000 32) (j : S600000x1.Idx) : ∃ k : S600000.Idx, startK ei j = normK ei k := by
  unfold startK broadcastInDim
  exact ⟨_, rfl⟩

/-- Where every source index is in range both comparisons hold at every row of the start-index column. -/
theorem mask_eq_ones (ei : IVec S2x600000 32) (hs : SrcInRange ei) :
    andi (cmpi .sge (startK ei) (broadcastInDim S600000x1 ![] bcast_S_S600000x1 (constantI S_ 32 0#32)))
      (cmpi .sle (startK ei) (broadcastInDim S600000x1 ![0, 1] bcast_S1x1_S600000x1_0_1
        (broadcastInDim S1x1 ![1] bcast_S1_S1x1_1 (constantI S1 32 49999#32)))) = fun _ => 1#1 := by
  funext j
  show IntOp.andi (IntOp.cmpi .sge (startK ei j) 0#32) (IntOp.cmpi .sle (startK ei j) 49999#32) = 1#1
  obtain ⟨k, hk⟩ := startK_apply ei j
  rw [hk, normK_apply]
  obtain ⟨h0, h1⟩ := hs (k 0)
  obtain ⟨a, b⟩ := normWord_range _ h0 h1
  rw [a, b]
  decide

/-- Where every source index is in range every edge's bit is set. -/
theorem keepK_eq_ones (ei : IVec S2x600000 32) (hs : SrcInRange ei) : keepK ei = fun _ => 1#1 := by
  funext j
  unfold keepK
  rw [mask_eq_ones ei hs]
  exact reduce_andi_ones _ _ _ rfl j

end K

/-! ## The two spellings, operation by operation -/

theorem srcK_eq_srcR (ei : IVec Cert.KernelIdeal.S2x600000 32) : srcK ei = srcR ei := rfl

theorem dstK_eq_dstR (ei : IVec Cert.KernelIdeal.S2x600000 32) : dstK ei = dstR ei := rfl

theorem normK_eq_normR (ei : IVec Cert.KernelIdeal.S2x600000 32) : normK ei = normR ei := rfl

theorem startK_eq_startR (ei : IVec Cert.KernelIdeal.S2x600000 32) : startK ei = startR ei := rfl

/-- The two programs' gather records are one record: the same dimension numbers and slice sizes. -/
theorem gatherK_eq_gatherR :
    (Cert.KernelIdeal.gather_S50000x128_S600000x1_S600000x128_1_0_n_n_0_1_1128 :
      GatherDims Cert.KernelIdeal.S50000x128 Cert.KernelIdeal.S600000x1 Cert.KernelIdeal.S600000x128)
      = Cert.ReferenceIdeal.gather_S50000x128_S600000x1_S600000x128_1_0_n_n_0_1_1128 := rfl

/-- Where every source index is in range the kernel program's gathered rows are the reference program's: every
    edge's bit is set, so the fill word is written nowhere. -/
theorem takeK_eq_takeR (h : FVec Ideal Cert.KernelIdeal.S50000x128 .f32) (ei : IVec Cert.KernelIdeal.S2x600000 32)
    (hs : SrcInRange ei) : takeK h ei = takeR h ei := by
  funext i
  unfold takeK takeR
  rw [select_apply, keepK_eq_ones ei hs]
  show Scalar.select 1#1 _ _ = _
  rw [select_one, startK_eq_startR, gatherK_eq_gatherR]

/-- The mean of the same messages over their destination nodes is spelt alike in both programs. -/
theorem meanK_eq_meanR (msg : FVec Ideal Cert.KernelIdeal.S600000x128 .f32) (ei : IVec Cert.KernelIdeal.S2x600000 32) :
    meanK msg ei = meanR msg ei := by
  unfold meanK meanR
  rw [dstK_eq_dstR]
  rfl

/-! ## The precondition's last conjunct -/

section Pre
open Cert.Pre_finite_inputs Cert.Pre_finite_inputs.Facts

/-- The predicate's value is its last part's, at some values of the names that part takes over. -/
theorem fn_eq_part3 {F : FTy → Type} [FloatOps F] [Cert.Pre_finite_inputs.Facts] (a0 : FVec F S50000x128 .f32)
    (a1 : IVec S2x600000 32) (a2 a3 : FVec F S128x128 .f32) (a4 a5 a6 a7 a8 : FVec F S128 .f32)
    (a9 a10 : FVec F S128x64 .f32) (a11 : FVec F S64 .f32) :
    ∃ (v48 : IVec S_ 1) (v49 v50 : FVec F S64 .f32),
      fn (F := F) a0 a1 a2 a3 a4 a5 a6 a7 a8 a9 a10 a11 = fn_part3 (F := F) a1 v48 v49 v50 :=
  ⟨_, _, _, rfl⟩

/-- The last part's last conjunct: every word of row 0 of the edge array lies in `[-50000, 50000)`, signed. The part is
    `(… and all(…)) and all(n ≥ -50000 and n < 50000)`; the second `all` being one gives both comparisons at each edge. -/
theorem part3_range {F : FTy → Type} [FloatOps F] [Cert.Pre_finite_inputs.Facts] (a1 : IVec S2x600000 32)
    (v48 : IVec S_ 1) (v49 v50 : FVec F S64 .f32) (h : fn_part3 (F := F) a1 v48 v49 v50 ix0 = 1#1) (e : Fin 600000) :
    -50000 ≤ (a1 (ix2 (0 : Fin 2) e)).toInt ∧ (a1 (ix2 (0 : Fin 2) e)).toInt < 50000 := by
  haveI : Subsingleton S_.Idx := ⟨fun a b => funext fun d => d.elim0⟩
  unfold fn_part3 at h
  dsimp only at h
  have h63 := (IntOp.andi_eq_one.1 h).2
  have hk := Host.reduce_andi_all _ _ _ _ _ h63 (ix1 e)
  obtain ⟨hge, hlt⟩ := IntOp.andi_eq_one.1 hk
  have cm : (4294917296#32 : BitVec 32).toInt = -50000 := by decide
  have cp : (50000#32 : BitVec 32).toInt = 50000 := by decide
  have hge' : IntOp.cmpi .sge (a1 (ix2 (0 : Fin 2) e)) 4294917296#32 = 1#1 := by
    rw [← row0_apply a1 slices_S2x600000_S1x600000_0_0 shapeCasts_S1x600000_S600000 (ix1 e)]
    exact hge
  have hlt' : IntOp.cmpi .slt (a1 (ix2 (0 : Fin 2) e)) 50000#32 = 1#1 := by
    rw [← row0_apply a1 slices_S2x600000_S1x600000_0_0 shapeCasts_S1x600000_S600000 (ix1 e)]
    exact hlt
  unfold IntOp.cmpi at hge' hlt'
  rw [ofBool_eq_one] at hge' hlt'
  simp only [BitVec.sle, BitVec.slt, cm, cp, decide_eq_true_eq] at hge' hlt'
  exact ⟨hge', hlt'⟩

/-- The predicate being one gives the range of every word of row 0 of the edge array. -/
theorem range_of_fn {F : FTy → Type} [FloatOps F] [Cert.Pre_finite_inputs.Facts] (a0 : FVec F S50000x128 .f32)
    (a1 : IVec S2x600000 32) (a2 a3 : FVec F S128x128 .f32) (a4 a5 a6 a7 a8 : FVec F S128 .f32)
    (a9 a10 : FVec F S128x64 .f32) (a11 : FVec F S64 .f32)
    (h : fn (F := F) a0 a1 a2 a3 a4 a5 a6 a7 a8 a9 a10 a11 ix0 = 1#1) (e : Fin 600000) :
    -50000 ≤ (a1 (ix2 (0 : Fin 2) e)).toInt ∧ (a1 (ix2 (0 : Fin 2) e)).toInt < 50000 := by
  obtain ⟨v48, v49, v50, hv⟩ := fn_eq_part3 a0 a1 a2 a3 a4 a5 a6 a7 a8 a9 a10 a11
  rw [hv] at h
  exact part3_range a1 v48 v49 v50 h e

end Pre

end Cert.Sage.AggEq

namespace Cert.Sage

open Idealize.ShloMosaic Idealize.ShloMosaic.ValueIdx Idealize.SL.Sem

/-- Where every source index is in range the kernel program's neighbour mean is the reference program's. -/
theorem aggK_eq_aggR (h : FVec Ideal Cert.KernelIdeal.S50000x128 .f32) (ei : IVec Cert.KernelIdeal.S2x600000 32)
    (hs : SrcInRange ei) : aggK h ei = aggR h ei := by
  unfold aggK aggR
  rw [AggEq.takeK_eq_takeR h ei hs, AggEq.meanK_eq_meanR]

/-- The precondition gives the range of the source indices. -/
theorem srcInRange_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    SrcInRange (m ((c.tc : Thread Cert.KernelIdeal.nD Cert.KernelIdeal.τ).loc Cert.KernelIdeal.main_arg1)) :=
  fun e => AggEq.range_of_fn (F := Ideal) _ _ _ _ _ _ _ _ _ _ _ _ (congrFun (hpre c) ix0) e

end Cert.Sage

end
-- ==== Proof.Net.lean ====
/-
  The whole network as one function of the twelve argument arrays: the output layer of the neighbour mean of the
  hidden rows and of the hidden rows, the hidden rows the hidden layer of the neighbour mean of the input rows and of
  the input rows. The neighbour mean is the reference program's host chain; both programs' results are shown to be
  this function.
-/
import proofs.«410555_j80676665688558_1_alg».proof.Proof.Spec
import proofs.«410555_j80676665688558_1_alg».proof.Proof.AggDefs

noncomputable section

namespace Cert.Sage

open Idealize.ShloMosaic Cert.ReferenceIdeal

/-- The hidden rows of all nodes. -/
def hidden (X : FVec Ideal S50000x128 .f32) (ei : IVec S2x600000 32) (W1l W1r : FVec Ideal S128x128 .f32)
    (b1 g be mn vr : FVec Ideal S128 .f32) : FVec Ideal S50000x128 .f32 :=
  hidArr (aggR X ei) X W1l W1r b1 g be mn vr

/-- The network's result. -/
def net (X : FVec Ideal S50000x128 .f32) (ei : IVec S2x600000 32) (W1l W1r : FVec Ideal S128x128 .f32)
    (b1 g be mn vr : FVec Ideal S128 .f32) (W2l W2r : FVec Ideal S128x64 .f32) (b2 : FVec Ideal S64 .f32) :
    FVec Ideal S50000x64 .f32 :=
  outArr (aggR (hidden X ei W1l W1r b1 g be mn vr) ei) (hidden X ei W1l W1r b1 g be mn vr) W2l W2r b2

end Cert.Sage

end
-- ==== Proof.KValue.lean ====
/-
  The kernel program's result is the network function of the arguments.

  The result buffer ends at what the second region's write-backs leave (the frame with the result named), which is the
  output layer of the arrays the region was entered with; those are the neighbour mean of the hidden array and the
  hidden array, read back through the second host stretch; the hidden array is what the first region's write-backs
  leave, the hidden layer of the neighbour mean of the input rows and the input rows. Where every source index is in
  range the kernel program's neighbour mean is the reference's, so the composite is `net`.
-/
import proofs.«410555_j80676665688558_1_alg».proof.Proof.KHost
import proofs.«410555_j80676665688558_1_alg».proof.Proof.Region0
import proofs.«410555_j80676665688558_1_alg».proof.Proof.Region1
import proofs.«410555_j80676665688558_1_alg».proof.Proof.AggEq
import proofs.«410555_j80676665688558_1_alg».proof.Proof.Net

set_option maxRecDepth 16384

noncomputable section

namespace Cert.Sage.KValue

open Cert.KernelIdeal Cert.KernelIdeal.Gen
open Idealize.ShloMosaic Idealize.ShloMosaic.TcCoe Idealize.SL.Sem Cert.Sage Cert.Sage.KHost

variable (m : (ℓ : Loc nD τ sig) → Buf (Elt Ideal) ℓ) (ρ : Dev nD → PrngReg)

/-- The hidden array the first region leaves is the hidden layer of the reference's neighbour mean and the input rows. -/
theorem hid_val (c : Dev nD) (hs : SrcInRange (m ((c : Thread nD τ).loc main_arg1))) :
    W4 m ρ c (Proc.devRef .tc main_v17)
      = hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W4_hid m ρ c).trans ((Region0.final0 (V3 m ρ) c).trans ?_)
  show hidArr (W3 m ρ c (Proc.devRef .tc main_v16)) (W3 m ρ c (Proc.devRef .tc main_arg0)) (W3 m ρ c (Proc.devRef .tc main_arg2))
      (W3 m ρ c (Proc.devRef .tc main_arg3)) (W3 m ρ c (Proc.devRef .tc main_arg4)) (W3 m ρ c (Proc.devRef .tc main_arg5))
      (W3 m ρ c (Proc.devRef .tc main_arg6)) (W3 m ρ c (Proc.devRef .tc main_arg7)) (W3 m ρ c (Proc.devRef .tc main_arg8)) = _
  rw [W3_mean, W3_arg0, W3_arg2, W3_arg3, W3_arg4, W3_arg5, W3_arg6, W3_arg7, W3_arg8, aggK_eq_aggR _ _ hs]
  rfl

/-- The result buffer's last contents are the network function of the arguments. -/
theorem out_val (c : Dev nD) (hs : SrcInRange (m ((c : Thread nD τ).loc main_arg1))) :
    W7 m ρ c (Proc.devRef .tc main_v31)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W7_out m ρ c).trans ((Region1.final1 (V6 m ρ) c).trans ?_)
  show outArr (W6 m ρ c (Proc.devRef .tc main_v30)) (W6 m ρ c (Proc.devRef .tc main_v17)) (W6 m ρ c (Proc.devRef .tc main_arg9))
      (W6 m ρ c (Proc.devRef .tc main_arg10)) (W6 m ρ c (Proc.devRef .tc main_arg11)) = _
  rw [W6_mean, W6_hid, W6_arg9, W6_arg10, W6_arg11, hid_val m ρ c hs, aggK_eq_aggR _ _ hs]
  rfl

end Cert.Sage.KValue

end
-- ==== Proof.RefSide.lean ====
/-
  The reference program, read as the two layers.

  The reference's result is, stage by stage, the output layer `outArr` of the neighbour mean of the hidden array and of the
  hidden array itself, and the hidden array is the hidden layer `hidArr` of the neighbour mean of the input rows and of
  the input rows. The neighbour means are the host chain `aggR`, left closed; every other stage is read at an entry
  `(r, j)`: a matrix product as the sum over the contracted axis, a broadcast bias as the bias's entry `j`.
-/
import proofs.«410555_j80676665688558_1_alg».proof.Proof.Gen.ReferenceIdeal.Read
import proofs.«410555_j80676665688558_1_alg».proof.Proof.Spec
import proofs.«410555_j80676665688558_1_alg».proof.Proof.AggDefs
import proofs.«410555_j80676665688558_1_alg».proof.Proof.Net

set_option maxRecDepth 16384

noncomputable section

namespace Cert.Sage.Ref

open Cert.ReferenceIdeal Cert.ReferenceIdeal.Gen Cert.ReferenceIdeal.Read
open Idealize.ShloMosaic Idealize.ShloMosaic.TcCoe Idealize.SL.Sem Idealize.ShloMosaic.ValueIdx Cert.Lib Cert.Sage

variable (x0 : FVec Ideal S50000x128 .f32) (x1 : IVec S2x600000 32) (x2 x3 : FVec Ideal S128x128 .f32)
  (x4 x5 x6 x7 x8 : FVec Ideal S128 .f32) (x9 x10 : FVec Ideal S128x64 .f32) (x11 : FVec Ideal S64 .f32)

/-- The first neighbour mean is the host chain of the input rows. -/
theorem mean1_eq : val_main_v22 (F := Ideal) x0 x1 = aggR x0 x1 := rfl

/-- The hidden array is the hidden layer of the first neighbour mean and the input rows. -/
theorem hid_eq :
    val_main_v44 (F := Ideal) x0 x1 x2 x3 x4 x5 x6 x7 x8
      = hidArr (val_main_v22 (F := Ideal) x0 x1) x0 x2 x3 x4 x5 x6 x7 x8 := by
  funext i
  obtain ⟨r, j, rfl⟩ : ∃ (r : Fin 50000) (j : Fin 128), i = ix2 r j := ⟨i 0, i 1, eq_ix2 i⟩
  rw [hidArr_apply]
  rw [val_main_v44_apply, val_main_v43_apply, val_main_v40_apply, val_main_v34_apply, val_main_v31_apply,
    val_main_v28_apply, val_main_v25_apply, val_main_v23_apply, val_main_v24_apply, val_main_v27_apply,
    val_main_v26_apply, val_main_v30_apply, val_main_v29_apply, val_main_v33_apply, val_main_v32_apply,
    val_main_v39_apply, val_main_v38_apply, val_main_v37_apply, val_main_v36_apply, val_main_v35_apply,
    val_main_cst_4_apply, val_main_v42_apply, val_main_v41_apply, val_main_call0_v0_apply, val_main_call0_cst_apply]
  have hb : idx_main_v26 (idx_main_v27 (ix2 r j)) = ix1 j := funext fun a => Fin.ext (by match a with | ⟨0, _⟩ => rfl)
  have hm : idx_main_v29 (idx_main_v30 (ix2 r j)) = ix1 j := funext fun a => Fin.ext (by match a with | ⟨0, _⟩ => rfl)
  have hg : idx_main_v32 (idx_main_v33 (ix2 r j)) = ix1 j := funext fun a => Fin.ext (by match a with | ⟨0, _⟩ => rfl)
  have hv : idx_main_v38 (idx_main_v39 (ix2 r j)) = ix1 j := funext fun a => Fin.ext (by match a with | ⟨0, _⟩ => rfl)
  have he : idx_main_v41 (idx_main_v42 (ix2 r j)) = ix1 j := funext fun a => Fin.ext (by match a with | ⟨0, _⟩ => rfl)
  have hl1 : ∀ k : Fin 128, lidx_main_v23 (ix2 r j) k = ix2 r k := fun k =>
    funext fun a => Fin.ext (by match a with | ⟨0, _⟩ => rfl | ⟨1, _⟩ => rfl)
  have hr1 : ∀ k : Fin 128, ridx_main_v23 (ix2 r j) k = ix2 k j := fun k =>
    funext fun a => Fin.ext (by match a with | ⟨0, _⟩ => rfl | ⟨1, _⟩ => rfl)
  have hl2 : ∀ k : Fin 128, lidx_main_v24 (ix2 r j) k = ix2 r k := fun k =>
    funext fun a => Fin.ext (by match a with | ⟨0, _⟩ => rfl | ⟨1, _⟩ => rfl)
  have hr2 : ∀ k : Fin 128, ridx_main_v24 (ix2 r j) k = ix2 k j := fun k =>
    funext fun a => Fin.ext (by match a with | ⟨0, _⟩ => rfl | ⟨1, _⟩ => rfl)
  simp only [hb, hm, hg, hv, he, hl1, hr1, hl2, hr2]
  rfl

/-- The second neighbour mean is the host chain of the hidden rows. -/
theorem mean2_eq :
    val_main_v63 (F := Ideal) x0 x1 x2 x3 x4 x5 x6 x7 x8 = aggR (val_main_v44 (F := Ideal) x0 x1 x2 x3 x4 x5 x6 x7 x8) x1 := rfl

/-- The result is the output layer of the second neighbour mean and the hidden array. -/
theorem out_eq :
    val_main_v69 (F := Ideal) x0 x1 x2 x3 x4 x5 x6 x7 x8 x9 x10 x11
      = outArr (val_main_v63 (F := Ideal) x0 x1 x2 x3 x4 x5 x6 x7 x8) (val_main_v44 (F := Ideal) x0 x1 x2 x3 x4 x5 x6 x7 x8) x9 x10 x11 := by
  funext i
  obtain ⟨r, j, rfl⟩ : ∃ (r : Fin 50000) (j : Fin 64), i = ix2 r j := ⟨i 0, i 1, eq_ix2 i⟩
  rw [outArr_apply]
  rw [val_main_v69_apply, val_main_v66_apply, val_main_v64_apply, val_main_v65_apply, val_main_v68_apply, val_main_v67_apply]
  have hb : idx_main_v67 (idx_main_v68 (ix2 r j)) = ix1 j := funext fun a => Fin.ext (by match a with | ⟨0, _⟩ => rfl)
  have hl1 : ∀ k : Fin 128, lidx_main_v64 (ix2 r j) k = ix2 r k := fun k =>
    funext fun a => Fin.ext (by match a with | ⟨0, _⟩ => rfl | ⟨1, _⟩ => rfl)
  have hr1 : ∀ k : Fin 128, ridx_main_v64 (ix2 r j) k = ix2 k j := fun k =>
    funext fun a => Fin.ext (by match a with | ⟨0, _⟩ => rfl | ⟨1, _⟩ => rfl)
  have hl2 : ∀ k : Fin 128, lidx_main_v65 (ix2 r j) k = ix2 r k := fun k =>
    funext fun a => Fin.ext (by match a with | ⟨0, _⟩ => rfl | ⟨1, _⟩ => rfl)
  have hr2 : ∀ k : Fin 128, ridx_main_v65 (ix2 r j) k = ix2 k j := fun k =>
    funext fun a => Fin.ext (by match a with | ⟨0, _⟩ => rfl | ⟨1, _⟩ => rfl)
  simp only [hb, hl1, hr1, hl2, hr2]
  rfl

/-- The reference's result is the network function of the arguments. -/
theorem result_eq :
    val_main_v69 (F := Ideal) x0 x1 x2 x3 x4 x5 x6 x7 x8 x9 x10 x11 = net x0 x1 x2 x3 x4 x5 x6 x7 x8 x9 x10 x11 := by
  rw [out_eq, mean2_eq, hid_eq, mean1_eq]
  rfl

end Cert.Sage.Ref

end
-- ==== Proof.lean ====
/-
  A two-layer mean-aggregation graph network (each node's row: the mean of its in-neighbours' rows and its own row,
  each through a weight matrix, plus a bias; batch normalisation with running statistics and a positive part after
  the first layer) — the kernel program runs the two dense layers as two tiled kernels over blocks of 5000 nodes and
  the gather and scatter-mean on the host; the reference runs everything on the host.

  On the extended reals the two programs compute the same expression in the same order of operations, entry by
  entry: a matrix product into a zero accumulator and the host's product are the same sum, a change of float format
  is the identity, a tile of rows is a restriction of the whole array. The one place they differ is a source index
  out of range of the node axis: the kernel program's gather writes a fill word there, the reference's clamps the
  index. The precondition puts every source index in `[-50000, 50000)` (a negative one counts from the end), and
  there the two neighbour means are one function (AggEq). The frames of the two kernel programs are the generated
  ones; the reference's is its generated run with the result dropped; the kernel program's value is read off its
  frame with the result named (KFrameV), the regions' closed forms (Region0, Region1) and the host stretches (KHost).
-/
import proofs.«410555_j80676665688558_1_alg».proof.Defs
import proofs.«410555_j80676665688558_1_alg».proof.Proof.Gen.Kernel
import proofs.«410555_j80676665688558_1_alg».proof.Proof.Gen.Kernel.Frame
import proofs.«410555_j80676665688558_1_alg».proof.Proof.Gen.KernelIdeal
import proofs.«410555_j80676665688558_1_alg».proof.Proof.Gen.KernelIdeal.Frame
import proofs.«410555_j80676665688558_1_alg».proof.Proof.Gen.ReferenceIdeal
import proofs.«410555_j80676665688558_1_alg».proof.Proof.Gen.ReferenceIdeal.Run
import proofs.«410555_j80676665688558_1_alg».proof.Proof.Gen.ReferenceIdeal.Read
import proofs.«410555_j80676665688558_1_alg».proof.Proof.Gen.Pre_finite_inputs
import proofs.«410555_j80676665688558_1_alg».proof.Proof.KFrameV
import proofs.«410555_j80676665688558_1_alg».proof.Proof.KValue
import proofs.«410555_j80676665688558_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network function of the (agreeing) arguments in their result buffers. -/
theorem algebraic : Cert.algebraic_KernelIdeal_ReferenceIdeal := by
  intro m ρ m' ρ' hpre hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run (Cert.KernelIdeal.defs (F := Ideal)) _ _).mono
      (fun r h c => ⟨(h c).1.trans (Cert.Sage.KValue.out_val m ρ c (Cert.Sage.srcInRange_of_pre m hpre c)), (h c).2⟩)
      (Cert.KernelIdeal.Gen.frameV m ρ)
  · refine (θ_run (Cert.ReferenceIdeal.defs (F := Ideal)) _ _).mono (fun r h c => ⟨?_, (h c).2⟩)
      (Cert.ReferenceIdeal.Value.run (F := Ideal) m' ρ')
    rw [(h c).1, Cert.ReferenceIdeal.Read.val_main_v69_eq, Cert.Sage.Ref.result_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
